-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩
abbrev S10000x256 : Shape := ⟨2, ![10000, 256]⟩
abbrev S1 : Shape := ⟨1, ![1]⟩
abbrev S10000 : Shape := ⟨1, ![10000]⟩
abbrev S400x10000 : Shape := ⟨2, ![400, 10000]⟩
abbrev S400x128 : Shape := ⟨2, ![400, 128]⟩
abbrev S400x256 : Shape := ⟨2, ![400, 256]⟩
abbrev S400x1 : Shape := ⟨2, ![400, 1]⟩

abbrev nBuf : Space → Nat
  | .hbm => 14
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S_, .f32⟩
  | .hbm, ⟨4, _⟩ => ⟨S10000x256, .f32⟩
  | .hbm, ⟨5, _⟩ => ⟨S_, .i32⟩
  | .hbm, ⟨6, _⟩ => ⟨S1, .i32⟩
  | .hbm, ⟨7, _⟩ => ⟨S10000x256, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S10000, .f32⟩
  | .hbm, ⟨12, _⟩ => ⟨S10000x256, .f32⟩
  | .hbm, ⟨13, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x256, .f32⟩
  | .local _ .vmem, ⟨3, _⟩ => ⟨S128x128, .f32⟩
  | .local _ .vmem, ⟨4, _⟩ => ⟨S400x128, .f32⟩
  | .local _ .vmem, ⟨5, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_c_0 : Ref sig .tc := ⟨.hbm, 8, rfl⟩
abbrev main_call0_v3 : Ref sig .tc := ⟨.hbm, 9, rfl⟩
abbrev main_call0_cst_1 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S10000x256 : S_.BroadcastsInDim S10000x256 (![] : Fin 0 → Fin S10000x256.rank)
  bcast_S_S1 : S_.BroadcastsInDim S1 (![] : Fin 0 → Fin S1.rank)
  bcast_S_S10000 : S_.BroadcastsInDim S10000 (![] : Fin 0 → Fin S10000.rank)
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  slices_S400x256_o0_0_S400x128 : S400x256.Slices ![0, 0] S400x128
  slices_S400x256_o0_128_S400x1 : S400x256.Slices ![0, 128] S400x1
  inb_S128x128_S128x128_0_0 : ∀ a, (![0, 0] : Fin 2 → Nat) a + S128x128.size a ≤ S128x128.size a
  h_S128x128 : 0 < S128x128.numel
  broadcasts_S400x1_S400x128 : S400x1.Broadcasts S400x128
  inb_S400x128_S400x128_0_0 : ∀ a, (![0, 0] : Fin 2 → Nat) a + S400x128.size a ≤ S400x128.size a
  h_S400x128 : 0 < S400x128.numel
  scatter_S10000x256_S1_S10000x128_01_n_1_0_wf : ScatterDims.WF S10000x256 S1 S10000x128 [0, 1] [] [1] 0
  scatter_S10000x256_S1_S10000_0_1_1_0_wf : ScatterDims.WF S10000x256 S1 S10000 [0] [1] [1] 0
  dot_S400x10000_S10000x256_S400x256_1_0_0_1_n_n_wf : DotDims.WF S400x10000 S10000x256 S400x256 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def scatter_S10000x256_S1_S10000x128_01_n_1_0 : ScatterDims S10000x256 S1 S10000x128 where
  updateWindowDims := [0, 1]
  insertedWindowDims := []
  scatterDimsToOperandDims := [1]
  indexVectorDim := 0
  wf := scatter_S10000x256_S1_S10000x128_01_n_1_0_wf
def scatter_S10000x256_S1_S10000_0_1_1_0 : ScatterDims S10000x256 S1 S10000 where
  updateWindowDims := [0]
  insertedWindowDims := [1]
  scatterDimsToOperandDims := [1]
  indexVectorDim := 0
  wf := scatter_S10000x256_S1_S10000_0_1_1_0_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩
abbrev S10000 : Shape := ⟨1, ![10000]⟩
abbrev S10000x1 : Shape := ⟨2, ![10000, 1]⟩

abbrev nBuf : Space → Nat
  | .hbm => 10
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000, .f32⟩
  | .hbm, ⟨7, _⟩ => ⟨S10000x1, .f32⟩
  | .hbm, ⟨8, _⟩ => ⟨S10000x128, .f32⟩
  | .hbm, ⟨9, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.Finite.lean ====
import proofs.«163424_g21887153340602_cont_8to1_460_3_alg».proof.Pre_finite_inputs
import Idealize.ShloMosaic.Lib.ReduceAll
import Idealize.ShloMosaic.Lib.ValueIdx
import Idealize.ShloMosaic.PureOps.Ideal.Laws
import proofs.«163424_g21887153340602_cont_8to1_460_3_alg».proof.Proof.LibReal

/-!
  What the precondition says of the inputs.

  The precondition is the conjunction, over the three float arguments, of "every entry's absolute value is
  below +∞".  On the extended reals the absolute value of either infinity is +∞, which is not below itself,
  so each conjunct says that every entry of its argument is a real number.
-/

noncomputable section

namespace Cert.Finite

open Idealize.ShloMosaic Cert.LibReal Cert.Pre_finite_inputs

instance : Subsingleton S_.Idx := ⟨fun a b => funext fun d => d.elim0⟩

/-- The pattern `0x7F800000` is +∞. -/
theorem inf_pattern : Ideal.ofBits .f32 0x7F800000#32 = (⊤ : EReal) := by simp [Ideal.ofBits, Ideal.ieee]

/-- An extended real whose absolute value compares below +∞ is a real number. -/
theorem isReal_of_abs_lt (x : EReal) (h : Ideal.cmp .olt (max x (-x)) (⊤ : EReal) = 1#1) : IsReal x := by
  induction x using EReal.rec with
  | bot => simp [Ideal.cmp] at h
  | coe r => exact ⟨r, rfl⟩
  | top => simp [Ideal.cmp] at h

/-- One conjunct: if all entries of `v` compare below +∞ in absolute value, every entry of `v` is real. -/
theorem all_real {s : Shape} {axes : List (Fin s.rank)} (v : FVec Ideal s .f32) (hb : S_.BroadcastsInDim s ![])
    (hr : s.ReducesTo axes S_) (hu : 0 < S_.numel)
    (h : Host.reduce IntOp.andi (cmpf .olt (Host.absf v) (broadcastInDim s ![] hb (constant S_ .f32 0x7F800000#32)))
      (constantI S_ 1 1#1) hr hu ValueIdx.ix0 = 1#1) (i : s.Idx) : IsReal (v i) := by
  have e := Host.reduce_andi_all _ _ hr hu _ h i
  refine isReal_of_abs_lt (v i) ?_
  rw [← inf_pattern]
  exact e

/-- Under the precondition every entry of every argument is a real number. -/
theorem reals_of_pre [Facts] (x : FVec Ideal S10000x128 .f32) (A : FVec Ideal S10000x10000 .f32) (W : FVec Ideal S128x128 .f32)
    (h : fn (F := Ideal) x A W = fun _ => 1#1) :
    (∀ i, IsReal (x i)) ∧ (∀ i, IsReal (A i)) ∧ (∀ i, IsReal (W i)) := by
  have h0 := congrFun h ValueIdx.ix0
  dsimp only [fn] at h0
  obtain ⟨h1, hW⟩ := IntOp.andi_eq_one.1 h0
  obtain ⟨hx, hA⟩ := IntOp.andi_eq_one.1 h1
  exact ⟨all_real x _ _ _ hx, all_real A _ _ _ hA, all_real W _ _ _ hW⟩

end Cert.Finite

end
-- ==== Proof.LibRealSum.lean ====
import Mathlib.Data.EReal.Basic
import Mathlib.Data.EReal.Operations
import Mathlib.Algebra.BigOperators.Group.Finset.Basic
import Mathlib.Algebra.BigOperators.Ring.Finset
import proofs.«163424_g21887153340602_cont_8to1_460_3_alg».proof.Proof.LibReal

/-!
  Finite sums of products of extended reals that are real numbers.

  The extended reals are not a semiring: a product does not distribute over a sum when an
  infinity meets a zero or infinities of both signs meet.  On real entries every sum and product
  is the real one, so the sums below may be re-bracketed as over `ℝ`.
-/

open scoped BigOperators

namespace Cert.LibRealSum

open Cert.LibReal

/-- A product of three matrices, read at one entry, does not depend on the bracketing:
    `Σ_j (Σ_k a_k · b_kj) · c_j = Σ_k a_k · (Σ_j b_kj · c_j)` for real `a`, `b`, `c`
    (`a` one row of the first factor, `c` one column of the third). -/
theorem sum_mul_sum_assoc {K J : Type} [Fintype K] [Fintype J] (a : K → EReal) (b : K → J → EReal) (c : J → EReal)
    (ha : ∀ k, IsReal (a k)) (hb : ∀ k j, IsReal (b k j)) (hc : ∀ j, IsReal (c j)) :
    ∑ j, (∑ k, a k * b k j) * c j = ∑ k, a k * ∑ j, b k j * c j := by
  choose a' ha' using ha
  choose b' hb' using hb
  choose c' hc' using hc
  have e1 : a = fun k => (a' k : EReal) := funext ha'
  have e2 : b = fun k j => (b' k j : EReal) := funext fun k => funext (hb' k)
  have e3 : c = fun j => (c' j : EReal) := funext hc'
  subst e1 e2 e3
  simp only [← EReal.coe_mul, ← coe_sum]
  refine congrArg (fun r : ℝ => (r : EReal)) ?_
  simp only [Finset.sum_mul, Finset.mul_sum]
  rw [Finset.sum_comm]
  exact Finset.sum_congr rfl fun k _ => Finset.sum_congr rfl fun j _ => by ring

/-- A sum of products with the constant one is the sum of the other factors (no realness is needed:
    one is a unit of the extended reals' product). -/
theorem sum_mul_one {K : Type} [Fintype K] (a : K → EReal) (u : K → EReal) (hu : ∀ k, u k = 1) :
    ∑ k, a k * u k = ∑ k, a k :=
  Finset.sum_congr rfl fun k _ => by rw [hu k, mul_one]

end Cert.LibRealSum
-- ==== Proof.Spec.lean ====
import Idealize.ShloMosaic.PureOps.Ideal
import Idealize.ShloMosaic.PureOps.Ideal.Laws
import Idealize.ShloMosaic.Lib.ValueIdx
import proofs.«163424_g21887153340602_cont_8to1_460_3_alg».proof.Proof.LibReal
import proofs.«163424_g21887153340602_cont_8to1_460_3_alg».proof.Proof.LibRealSum

/-!
  Mean aggregation over a dense weighted graph, as one function of the three argument arrays.

  With node features `x` (10000 × 128), dense edge weights `A` (10000 × 10000) and a linear map `W`
  (128 × 128), the layer's output at node `r`, channel `o` is

      ( Σ_k A[r,k] · ( Σ_j x[k,j] · W[j,o] ) )  /  ( 0 + Σ_k A[r,k] ):

  transform every node's features, sum them over the neighbours with the edge weights, and divide by the
  row's total weight (`G`; the leading zero is the initial value of the row sum).

  The other arrangement (`K`, stated for one block of 400 rows of `A`) aggregates first and transforms
  afterwards, and gets the row's total weight out of the same product by widening the features with a
  column of ones: with `xe = [x | 1 | 0 …]` of width 256,

      ( Σ_j ( Σ_k A[r,k] · xe[k,j] ) · W[j,o] )  /  ( Σ_k A[r,k] · xe[k,128] ).

  On real entries the two numerators are the two bracketings of the triple product `A · x · W`, and the
  two denominators differ by a factor one and a summand zero: `K_eq_G`.  Both quotients are the same
  total division, so nothing is asked of the row's total weight (it may be zero).
-/

open scoped BigOperators

noncomputable section

namespace Cert.Sage

open Idealize.ShloMosaic Idealize.ShloMosaic.ValueIdx Cert.LibReal Cert.LibRealSum

abbrev SX : Shape := ⟨2, ![10000, 128]⟩
abbrev SA : Shape := ⟨2, ![10000, 10000]⟩
abbrev SW : Shape := ⟨2, ![128, 128]⟩
abbrev SXe : Shape := ⟨2, ![10000, 256]⟩
abbrev SAb : Shape := ⟨2, ![400, 10000]⟩
abbrev SOb : Shape := ⟨2, ![400, 128]⟩

/-- Column `j` of the features as a column of the widened features. -/
abbrev wide (j : Fin 128) : Fin 256 := ⟨j.val, Nat.lt_trans j.isLt (by decide)⟩
/-- The column of ones in the widened features. -/
abbrev onesCol : Fin 256 := ⟨128, by decide⟩

/-- The weighted sum over node `r`'s neighbours of their transformed features, at channel `o`. -/
def agg (x : SX.Idx → EReal) (A : SA.Idx → EReal) (W : SW.Idx → EReal) (r : Fin 10000) (o : Fin 128) : EReal :=
  ∑ k : Fin 10000, A (ix2 r k) * ∑ j : Fin 128, x (ix2 k j) * W (ix2 j o)

/-- Row `r`'s total edge weight. -/
def deg (A : SA.Idx → EReal) (r : Fin 10000) : EReal := ∑ k : Fin 10000, A (ix2 r k)

/-- The layer's output as one function of the argument arrays. -/
def G (x : SX.Idx → EReal) (A : SA.Idx → EReal) (W : SW.Idx → EReal) : SX.Idx → EReal :=
  fun i => Ideal.div (agg x A W (i 0) (i 1)) (Ideal.ofBits .f32 0x00000000#32 + deg A (i 0))

/-- One block of 400 output rows computed from the block's rows of `A`, the widened features and `W`:
    aggregate, then transform, and divide by the aggregated column of ones. -/
def K (Ab : SAb.Idx → EReal) (xe : SXe.Idx → EReal) (W : SW.Idx → EReal) : SOb.Idx → EReal :=
  fun y => Ideal.div
    (∑ j : Fin 128, (∑ k : Fin 10000, Ab (ix2 (y 0) k) * xe (ix2 k (wide j))) * W (ix2 j (y 1)))
    (∑ k : Fin 10000, Ab (ix2 (y 0) k) * xe (ix2 k onesCol))

/-- On real entries, a block computed from rows of `A`, from features widened by `x` itself and a column
    of ones, and from `W`, holds the layer's output: entry `y` of the block is entry `i` of the output when the
    block's row `y 0` of edge weights is row `i 0` of `A` and its column `y 1` of the linear map is column
    `i 1` of `W`. -/
theorem K_eq_G (x : SX.Idx → EReal) (A : SA.Idx → EReal) (W : SW.Idx → EReal)
    (hx : ∀ i, IsReal (x i)) (hA : ∀ i, IsReal (A i)) (hW : ∀ i, IsReal (W i))
    (Ab : SAb.Idx → EReal) (xe : SXe.Idx → EReal) (Wb : SW.Idx → EReal)
    (hxe : ∀ (k : Fin 10000) (j : Fin 128), xe (ix2 k (wide j)) = x (ix2 k j))
    (hone : ∀ k : Fin 10000, xe (ix2 k onesCol) = 1)
    (y : SOb.Idx) (i : SX.Idx)
    (hAb : ∀ k : Fin 10000, Ab (ix2 (y 0) k) = A (ix2 (i 0) k))
    (hWb : ∀ j : Fin 128, Wb (ix2 j (y 1)) = W (ix2 j (i 1))) :
    K Ab xe Wb y = G x A W i := by
  show Ideal.div _ _ = Ideal.div _ _
  have hnum : (∑ j : Fin 128, (∑ k : Fin 10000, Ab (ix2 (y 0) k) * xe (ix2 k (wide j))) * Wb (ix2 j (y 1)))
      = agg x A W (i 0) (i 1) := by
    simp only [hAb, hxe, hWb]
    exact sum_mul_sum_assoc (fun k => A (ix2 (i 0) k)) (fun k j => x (ix2 k j)) (fun j => W (ix2 j (i 1)))
      (fun k => hA _) (fun k j => hx _) (fun j => hW _)
  have hden : (∑ k : Fin 10000, Ab (ix2 (y 0) k) * xe (ix2 k onesCol))
      = Ideal.ofBits .f32 0x00000000#32 + deg A (i 0) := by
    rw [Ideal.ofBits_zero_f32, zero_add]
    simp only [hAb]
    exact sum_mul_one (fun k => A (ix2 (i 0) k)) (fun k => xe (ix2 k onesCol)) hone
  exact congrArg₂ Ideal.div hnum hden

end Cert.Sage

end
-- ==== Proof.RefValue.lean ====
import proofs.«163424_g21887153340602_cont_8to1_460_3_alg».proof.Proof.Gen.ReferenceIdeal.Read
import Idealize.ShloMosaic.Lib.ValueIdx
import proofs.«163424_g21887153340602_cont_8to1_460_3_alg».proof.Proof.Spec

/-!
  The reference computes the specification.

  The reference transforms the features (`x · W`), aggregates them with the edge weights (`A · (x · W)`),
  sums each row of `A` from zero, and divides entry by entry by the row's sum spread along the channels.
  Read at entry `(r, o)` that is `Cert.Sage.G` as it is written.
-/

open scoped BigOperators

noncomputable section

namespace Cert.ReferenceIdeal.RefValue

open Cert.ReferenceIdeal Cert.ReferenceIdeal.Read Idealize.ShloMosaic Idealize.ShloMosaic.ValueIdx Cert.Sage

/-- The reference's result, as a function of the three arguments, is the specification. -/
theorem ref_eq_G (x : FVec Ideal S10000x128 .f32) (A : FVec Ideal S10000x10000 .f32) (W : FVec Ideal S128x128 .f32) :
    val_main_v5 (F := Ideal) x A W = G x A W := by
  funext i
  obtain ⟨r, o, rfl⟩ : ∃ (r : Fin 10000) (o : Fin 128), i = ix2 r o := ⟨i 0, i 1, eq_ix2 i⟩
  have e1 : ∀ k : Fin 10000, lidx_main_v1 (ix2 r o) k = ix2 r k := fun k => funext fun a => Fin.ext (by
    match a with | ⟨0, _⟩ => rfl | ⟨1, _⟩ => rfl)
  have e2 : ∀ (k : Fin 10000) (j : Fin 128), lidx_main_v0 (ridx_main_v1 (ix2 r o) k) j = ix2 k j :=
    fun k j => funext fun a => Fin.ext (by match a with | ⟨0, _⟩ => rfl | ⟨1, _⟩ => rfl)
  have e3 : ∀ (k : Fin 10000) (j : Fin 128), ridx_main_v0 (ridx_main_v1 (ix2 r o) k) j = ix2 j o :=
    fun k j => funext fun a => Fin.ext (by match a with | ⟨0, _⟩ => rfl | ⟨1, _⟩ => rfl)
  have e4 : ∀ k : Fin 10000, idx_main_v2 (idx_main_v3 (idx_main_v4 (ix2 r o))) k = ix2 r k :=
    fun k => funext fun a => Fin.ext (by match a with | ⟨0, _⟩ => rfl | ⟨1, _⟩ => rfl)
  rw [val_main_v5_apply, val_main_v1_apply, val_main_v4_apply, val_main_v3_apply, val_main_v2_apply, val_main_cst_apply]
  simp only [val_main_v0_apply, e1, e2, e3, e4]
  rfl

end Cert.ReferenceIdeal.RefValue

end
-- ==== Proof.LibScatterSet.lean ====
import Idealize.ShloMosaic.PureOps.ShapeOps
import Idealize.ShloMosaic.PureOps.Dims

/-!
  A host scatter whose body returns the update, read at one index.

  Such a scatter is a left fold, over the update indices, of pointwise overwrites: update `j`
  replaces the element at the operand index it lands on.  Read at a fixed operand index `i`,
  the fold forgets every update that lands elsewhere.  So if no update lands on `i` the result
  there is the operand's element, and if every update that lands on `i` carries one value `c`
  (in particular if exactly one lands there) the result there is `c`.

  When the landing index of update `j` is `e j` for a map `e` of the update's index space into the
  operand's, these two facts read: the result at `e j` is the update at `j` (for injective `e`),
  and the result off the image of `e` is the operand.
-/

namespace Cert.LibScatterSet

open Idealize.ShloMosaic

section Fold

variable {ι α N : Type} [DecidableEq ι]

/-- A fold of pointwise overwrites, read at an index on which no step of the list lands, is the
    initial function there. -/
theorem foldl_set_miss (g : N → Option ι) (v : N → α) (step : (ι → α) → N → (ι → α))
    (hstep : ∀ r n i, step r n i = if g n = some i then v n else r i)
    (l : List N) (x : ι → α) (i : ι) (h : ∀ n ∈ l, g n ≠ some i) :
    l.foldl step x i = x i := by
  induction l generalizing x with
  | nil => rfl
  | cons n t ih =>
    rw [List.foldl_cons, ih _ (fun n' hn' => h n' (List.mem_cons_of_mem _ hn')), hstep,
      if_neg (h n List.mem_cons_self)]

/-- A fold of pointwise overwrites, read at an index on which some step lands, every step that
    lands there writing the one value `c`, is `c` there: the last such step decides. -/
theorem foldl_set_hit (g : N → Option ι) (v : N → α) (step : (ι → α) → N → (ι → α))
    (hstep : ∀ r n i, step r n i = if g n = some i then v n else r i)
    (l : List N) (x : ι → α) (i : ι) (c : α)
    (hex : ∃ n ∈ l, g n = some i) (hall : ∀ n ∈ l, g n = some i → v n = c) :
    l.foldl step x i = c := by
  induction l generalizing x with
  | nil => obtain ⟨n, hn, _⟩ := hex; cases hn
  | cons n t ih =>
    rw [List.foldl_cons]
    by_cases ht : ∃ n' ∈ t, g n' = some i
    · exact ih _ ht (fun n' hn' => hall n' (List.mem_cons_of_mem _ hn'))
    · have hmiss : ∀ n' ∈ t, g n' ≠ some i := fun n' hn' hg => ht ⟨n', hn', hg⟩
      rw [foldl_set_miss g v step hstep t _ i hmiss, hstep]
      obtain ⟨n0, hn0, hg0⟩ := hex
      rcases List.mem_cons.1 hn0 with rfl | hn0t
      · rw [if_pos hg0]; exact hall _ List.mem_cons_self hg0
      · exact absurd hg0 (hmiss _ hn0t)

end Fold

section Scatter

variable {s si u : Shape} {α : Type} {w : Nat}

/-- One step of the scatter's fold, read at an index: the update's element where the update lands,
    what was there elsewhere. -/
theorem step_apply (d : ScatterDims s si u) (idx : IVec si w) (upd : u.Idx → α)
    (r : s.Idx → α) (n : Fin u.numel) (i' : s.Idx) :
    (match d.resultIdx? (u.rowMajor.symm n) idx with
      | some i => fun i' => if i' = i then (fun (_ b : α) => b) (r i) (upd (u.rowMajor.symm n)) else r i'
      | none => r) i'
    = if d.resultIdx? (u.rowMajor.symm n) idx = some i' then upd (u.rowMajor.symm n) else r i' := by
  generalize d.resultIdx? (u.rowMajor.symm n) idx = o
  cases o with
  | none => simp
  | some k =>
    by_cases hk : i' = k
    · subst hk; simp
    · have hk' : ¬ (some k = some i') := fun h => hk (Option.some.inj h).symm
      simp [hk, hk']

/-- The scatter read at an index on which no update lands is the operand there. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  unfold Host.scatter
  exact foldl_set_miss (fun n => d.resultIdx? (u.rowMajor.symm n) idx) (fun n => upd (u.rowMajor.symm n)) _
    (step_apply d idx upd) _ x i (fun n _ => h _)

/-- The scatter read at an index on which some update lands, all that land there carrying `c`, is `c`. -/
theorem scatter_set_hit (d : ScatterDims s si u) (x : s.Idx → α) (idx : IVec si w) (upd : u.Idx → α) (i : s.Idx) (c : α)
    (hex : ∃ j, d.resultIdx? j idx = some i) (hall : ∀ j, d.resultIdx? j idx = some i → upd j = c) :
    Host.scatter d (fun _ b => b) x idx upd i = c := by
  unfold Host.scatter
  refine foldl_set_hit (fun n => d.resultIdx? (u.rowMajor.symm n) idx) (fun n => upd (u.rowMajor.symm n)) _
    (step_apply d idx upd) _ x i c ?_ (fun n _ hn => hall _ hn)
  obtain ⟨j, hj⟩ := hex
  exact ⟨u.rowMajor j, List.mem_finRange _, by simpa using hj⟩

/-- Every update `j` landing at `e j`, `e` injective: the scatter at `e j` is the update at `j`. -/
theorem scatter_set_at (d : ScatterDims s si u) (x : s.Idx → α) (idx : IVec si w) (upd : u.Idx → α)
    (e : u.Idx → s.Idx) (hres : ∀ j, d.resultIdx? j idx = some (e j)) (he : Function.Injective e) (j : u.Idx) :
    Host.scatter d (fun _ b => b) x idx upd (e j) = upd j :=
  scatter_set_hit d x idx upd (e j) (upd j) ⟨j, hres j⟩
    (fun j' hj' => congrArg upd (he (Option.some.inj ((hres j').symm.trans hj'))))

/-- Every update `j` landing at `e j`: the scatter off the image of `e` is the operand. -/
theorem scatter_set_off (d : ScatterDims s si u) (x : s.Idx → α) (idx : IVec si w) (upd : u.Idx → α)
    (e : u.Idx → s.Idx) (hres : ∀ j, d.resultIdx? j idx = some (e j)) (i : s.Idx) (hi : ∀ j, e j ≠ i) :
    Host.scatter d (fun _ b => b) x idx upd i = x i :=
  scatter_set_miss d x idx upd i (fun j hj => hi j (Option.some.inj ((hres j).symm.trans hj)))

/-- The landing index of an update, from its coordinates: if on every operand axis the window's
    start plus the window coordinate is the coordinate of `e j`, update `j` lands at `e j`. -/
theorem resultIdx?_eq_some (d : ScatterDims s si u) (idx : IVec si w) (j : u.Idx) (k : s.Idx)
    (h : ∀ a, d.start j idx a + (d.window j a : Int) = ((k a).val : Int)) :
    d.resultIdx? j idx = some k := by
  unfold ScatterDims.resultIdx?
  rw [dif_pos (fun a => by rw [h a]; exact ⟨Int.natCast_nonneg _, by exact_mod_cast (k a).isLt⟩)]
  refine congrArg some (funext fun a => Fin.ext ?_)
  show (d.start j idx a + (d.window j a : Int)).toNat = (k a).val
  rw [h a]; exact Int.toNat_natCast _

end Scatter

end Cert.LibScatterSet
-- ==== Proof.Widened.lean ====
import proofs.«163424_g21887153340602_cont_8to1_460_3_alg».proof.Proof.Gen.KernelIdeal.Frame
import Idealize.ShloMosaic.Lib.StableHlo.Run
import Idealize.ShloMosaic.Lib.IdealHost
import Idealize.ShloMosaic.Lib.ValueIdx
import proofs.«163424_g21887153340602_cont_8to1_460_3_alg».proof.Proof.LibScatterSet
import proofs.«163424_g21887153340602_cont_8to1_460_3_alg».proof.Proof.Spec

/-!
  The widened features the kernel region finds.

  Before the region the program builds `xe`, 10000 × 256: an array of zeros, the features `x` written
  over its columns 0 … 127 (a scatter of the whole of `x` at the one start index 0 on the column axis),
  then a column of ones written over its column 128 (a scatter of 10000 ones at the start index 128).
  Read at an index: column `j < 128` of `xe` is column `j` of `x` — the second scatter lands on column
  128 only, and the first lands each entry of `x` on itself —, and column 128 is the constant one.
-/

noncomputable section

namespace Cert.KernelIdeal.Widened

open Cert.KernelIdeal Cert.KernelIdeal.Gen Idealize.ShloMosaic Idealize.ShloMosaic.TcCoe Idealize.SL.Sem
open Idealize.ShloMosaic.ValueIdx Cert.LibScatterSet Cert.Sage

/-- The one start index of the first scatter: column 0. -/
abbrev at0 : IVec S1 32 := broadcastInDim S1 ![] bcast_S_S1 (constantI S_ 32 0#32)
/-- The one start index of the second scatter: column 128. -/
abbrev at128 : IVec S1 32 := broadcastInDim S1 ![] bcast_S_S1 (constantI S_ 32 128#32)

/-- The features over columns 0 … 127 of an array of zeros. -/
def padded {F : FTy → Type} [FloatOps F] (x : FVec F S10000x128 .f32) : FVec F S10000x256 .f32 :=
  Host.scatter scatter_S10000x256_S1_S10000x128_01_n_1_0 (fun _ b => b)
    (broadcastInDim S10000x256 ![] bcast_S_S10000x256 (constant S_ .f32 0x00000000#32)) at0 x

/-- The widened features: the padded features with ones over column 128. -/
def widened {F : FTy → Type} [FloatOps F] (x : FVec F S10000x128 .f32) : FVec F S10000x256 .f32 :=
  Host.scatter scatter_S10000x256_S1_S10000_0_1_1_0 (fun _ b => b) (padded x) at128
    (broadcastInDim S10000 ![] bcast_S_S10000 (constant S_ .f32 0x3F800000#32))

/-! ## Where the two scatters' updates land -/

/-- Entry `(k, j)` of the features lands on entry `(k, j)` of the wide array. -/
abbrev land1 (j : S10000x128.Idx) : S10000x256.Idx := ix2 (j 0) (wide (j 1))
/-- Entry `k` of the column of ones lands on entry `(k, 128)`. -/
abbrev land2 (j : S10000.Idx) : S10000x256.Idx := ix2 (j 0) onesCol

theorem at0_apply (k : S1.Idx) : at0 k = 0#32 := by
  unfold at0; rw [broadcastInDim_scalar_apply]; rfl
theorem at128_apply (k : S1.Idx) : at128 k = 128#32 := by
  unfold at128; rw [broadcastInDim_scalar_apply]; rfl

theorem lands1 (j : S10000x128.Idx) :
    scatter_S10000x256_S1_S10000x128_01_n_1_0.resultIdx? j at0 = some (land1 j) := by
  refine resultIdx?_eq_some _ _ _ _ fun a => ?_
  match a with
  | ⟨0, _⟩ =>
    have hs : scatter_S10000x256_S1_S10000x128_01_n_1_0.start j at0 (0 : Fin S10000x256.rank) = 0 := by
      unfold ScatterDims.start
      rw [dif_neg (show ¬(0 : Fin S10000x256.rank) ∈ scatter_S10000x256_S1_S10000x128_01_n_1_0.scatterDimsToOperandDims by decide)]
    have hw : scatter_S10000x256_S1_S10000x128_01_n_1_0.window j (0 : Fin S10000x256.rank) = (j 0).val := by
      unfold ScatterDims.window
      rw [dif_pos (show (0 : Fin S10000x256.rank) ∈ scatter_S10000x256_S1_S10000x128_01_n_1_0.sKept by decide)]
      rfl
    show scatter_S10000x256_S1_S10000x128_01_n_1_0.start j at0 (0 : Fin S10000x256.rank)
      + (scatter_S10000x256_S1_S10000x128_01_n_1_0.window j (0 : Fin S10000x256.rank) : Int) = ((j 0).val : Int)
    rw [hs, hw, zero_add]
  | ⟨1, _⟩ =>
    have hs : scatter_S10000x256_S1_S10000x128_01_n_1_0.start j at0 (1 : Fin S10000x256.rank) = 0 := by
      unfold ScatterDims.start
      rw [dif_pos (show (1 : Fin S10000x256.rank) ∈ scatter_S10000x256_S1_S10000x128_01_n_1_0.scatterDimsToOperandDims by decide),
        at0_apply]
      rfl
    have hw : scatter_S10000x256_S1_S10000x128_01_n_1_0.window j (1 : Fin S10000x256.rank) = (j 1).val := by
      unfold ScatterDims.window
      rw [dif_pos (show (1 : Fin S10000x256.rank) ∈ scatter_S10000x256_S1_S10000x128_01_n_1_0.sKept by decide)]
      rfl
    show scatter_S10000x256_S1_S10000x128_01_n_1_0.start j at0 (1 : Fin S10000x256.rank)
      + (scatter_S10000x256_S1_S10000x128_01_n_1_0.window j (1 : Fin S10000x256.rank) : Int) = ((j 1).val : Int)
    rw [hs, hw, zero_add]

theorem lands2 (j : S10000.Idx) :
    scatter_S10000x256_S1_S10000_0_1_1_0.resultIdx? j at128 = some (land2 j) := by
  refine resultIdx?_eq_some _ _ _ _ fun a => ?_
  match a with
  | ⟨0, _⟩ =>
    have hs : scatter_S10000x256_S1_S10000_0_1_1_0.start j at128 (0 : Fin S10000x256.rank) = 0 := by
      unfold ScatterDims.start
      rw [dif_neg (show ¬(0 : Fin S10000x256.rank) ∈ scatter_S10000x256_S1_S10000_0_1_1_0.scatterDimsToOperandDims by decide)]
    have hw : scatter_S10000x256_S1_S10000_0_1_1_0.window j (0 : Fin S10000x256.rank) = (j 0).val := by
      unfold ScatterDims.window
      rw [dif_pos (show (0 : Fin S10000x256.rank) ∈ scatter_S10000x256_S1_S10000_0_1_1_0.sKept by decide)]
      rfl
    show scatter_S10000x256_S1_S10000_0_1_1_0.start j at128 (0 : Fin S10000x256.rank)
      + (scatter_S10000x256_S1_S10000_0_1_1_0.window j (0 : Fin S10000x256.rank) : Int) = ((j 0).val : Int)
    rw [hs, hw, zero_add]
  | ⟨1, _⟩ =>
    have hs : scatter_S10000x256_S1_S10000_0_1_1_0.start j at128 (1 : Fin S10000x256.rank) = 128 := by
      unfold ScatterDims.start
      rw [dif_pos (show (1 : Fin S10000x256.rank) ∈ scatter_S10000x256_S1_S10000_0_1_1_0.scatterDimsToOperandDims by decide),
        at128_apply]
      rfl
    have hw : scatter_S10000x256_S1_S10000_0_1_1_0.window j (1 : Fin S10000x256.rank) = 0 := by
      unfold ScatterDims.window
      rw [dif_neg (show ¬(1 : Fin S10000x256.rank) ∈ scatter_S10000x256_S1_S10000_0_1_1_0.sKept by decide)]
    show scatter_S10000x256_S1_S10000_0_1_1_0.start j at128 (1 : Fin S10000x256.rank)
      + (scatter_S10000x256_S1_S10000_0_1_1_0.window j (1 : Fin S10000x256.rank) : Int) = ((128 : Nat) : Int)
    rw [hs, hw]; rfl

theorem land1_injective : Function.Injective land1 := fun j j' h => by
  have h0 := congrArg (fun i : S10000x256.Idx => (i 0).val) h
  have h1 := congrArg (fun i : S10000x256.Idx => (i 1).val) h
  funext a
  match a with
  | ⟨0, _⟩ => exact Fin.ext h0
  | ⟨1, _⟩ => exact Fin.ext h1

theorem land2_injective : Function.Injective land2 := fun j j' h => by
  have h0 := congrArg (fun i : S10000x256.Idx => (i 0).val) h
  funext a
  match a with
  | ⟨0, _⟩ => exact Fin.ext h0

/-! ## The widened features read at an index -/

/-- A feature column of the widened features is that column of the features. -/
theorem widened_wide {F : FTy → Type} [FloatOps F] (x : FVec F S10000x128 .f32) (k : Fin 10000) (j : Fin 128) :
    widened x (ix2 k (wide j)) = x (ix2 k j) := by
  unfold widened
  rw [scatter_set_off _ _ _ _ land2 lands2 _ (fun j' h => by
    have h1 := congrArg (fun i : S10000x256.Idx => (i 1).val) h
    have : (128 : Nat) = j.val := h1
    have := j.isLt; omega)]
  unfold padded
  exact scatter_set_at _ _ _ x land1 lands1 land1_injective (ix2 k j)

/-- Column 128 of the widened features is the constant whose pattern is `0x3F800000`. -/
theorem widened_ones {F : FTy → Type} [FloatOps F] (x : FVec F S10000x128 .f32) (k : Fin 10000) :
    widened x (ix2 k onesCol) = FloatOps.ofBits .f32 0x3F800000#32 := by
  unfold widened
  rw [show (ix2 k onesCol : S10000x256.Idx) = land2 (ix1 k) from rfl,
    scatter_set_at _ _ _ _ land2 lands2 land2_injective (ix1 k), broadcastInDim_scalar_apply]
  rfl

/-- At the extended reals that constant is one. -/
theorem widened_ones_ideal (x : FVec Ideal S10000x128 .f32) (k : Fin 10000) :
    widened x (ix2 k onesCol) = (1 : EReal) :=
  (widened_ones x k).trans Ideal.ofBits_one_f32

/-! ## The region finds the widened features in its second window's array -/

variable {F : FTy → Type} [FloatOps F]
variable (m : (ℓ : Loc nD τ sig) → Buf (Elt F) ℓ)

/-- Contents carried to a buffer's own type and back are the contents. -/
theorem ofBuf_toBuf {Val : EltTy → Type} {T : BufTy} (x : StableHlo.TRef sig T) (v : T.Contents Val) :
    x.ofBuf (x.toBuf v) = v := by
  obtain ⟨r, h, _, _⟩ := x
  subst h
  rfl

/-- Contents of a buffer read at the value's type are the contents, when the two types are one. -/
theorem ofBuf_eq_of_heq {Val : EltTy → Type} {T : BufTy} (x : StableHlo.TRef sig T) (v : x.ref.ty.Contents Val)
    (w : T.Contents Val) (h : HEq v w) : x.ofBuf v = w :=
  eq_of_heq ((cast_heq _ _).trans h)

/-- The host operations before the region leave the widened features of the first argument in the buffer
    the region's second window stages. -/
theorem V_widened (c : Dev nD) :
    (V m c main_call0_v5 : FVec F S10000x256 .f32) = widened (m ((c : Thread nD τ).loc main_arg0)) := by
  dsimp only [V, hostOps0]
  after_results
  refine eq_of_heq ((cast_heq _ _).trans (heq_of_eq ?_))
  simp only [ofBuf_toBuf]
  rw [ofBuf_eq_of_heq _ _ (m ((c : Thread nD τ).loc main_arg0)) HEq.rfl]
  unfold widened padded
  rfl

end Cert.KernelIdeal.Widened

end
-- ==== Proof.Payload.lean ====
import proofs.«163424_g21887153340602_cont_8to1_460_3_alg».proof.Proof.Gen.KernelIdeal.Skeleton
import Idealize.ShloMosaic.Lib.Pipeline.Value
import Idealize.ShloMosaic.Lib.ValueIdx
import Idealize.ShloMosaic.PureOps.Ideal.Laws
import proofs.«163424_g21887153340602_cont_8to1_460_3_alg».proof.Proof.Spec

/-!
  What the body computes for one block, entry by entry.

  The body multiplies its 400 rows of edge weights by the widened features (a product into a zero
  accumulator: entry `(p, j)` is `Σ_k a[p,k] · xe[k,j]`), cuts the product into its first 128 columns and
  its column 128, multiplies the first by `W` (again into zero), spreads the second along the 128 output
  columns and divides.  Entry `(p, q)` of what it stores is therefore the block arrangement `Cert.Sage.K`
  of the three loaded blocks.
-/

open scoped BigOperators

noncomputable section

namespace Cert.KernelIdeal.Payload

open Cert.KernelIdeal Cert.KernelIdeal.Gen Idealize.ShloMosaic Idealize.ShloMosaic.ValueIdx Cert.Sage

/-! ## The two products' operand indices, axis by axis -/

theorem lhs_agg_0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem lhs_agg_1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
theorem rhs_agg_0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
theorem rhs_agg_1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

theorem lhs_lin_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_lin_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_lin_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_lin_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-! ## The two products as sums -/

/-- The first product: rows of edge weights against the widened features, into zero. -/
theorem aggregate_apply (a : FVec Ideal S400x10000 .f32) (b : FVec Ideal S10000x256 .f32) (p : Fin 400) (j : Fin 256) :
    matmul dot_S400x10000_S10000x256_S400x256_1_0_0_1_n_n none a b (constant S400x256 .f32 0x00000000#32) (ix2 p j)
      = ∑ k : Fin 10000, a (ix2 p k) * b (ix2 k j) := by
  simp only [matmul]
  rw [Ideal.matmul_constant_zero_apply, ← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 p j) ((contrEquiv1 dot_S400x10000_S10000x256_S400x256_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x256_S400x256_1_0_0_1_n_n.rhsIdx (ix2 p j) ((contrEquiv1 dot_S400x10000_S10000x256_S400x256_1_0_0_1_n_n 10000 rfl rfl).symm k) = ix2 k j := funext fun a => Fin.ext (by
    match a with
    | ⟨0, _⟩ => exact (rhs_agg_0 _ _).trans hk
    | ⟨1, _⟩ => exact rhs_agg_1 _ _)
  rw [el, er]

/-- The second product: aggregated features against the linear map, into zero. -/
theorem transform_apply (a : FVec Ideal S400x128 .f32) (b : FVec Ideal S128x128 .f32) (p : Fin 400) (j : Fin 128) :
    matmul dot_S400x128_S128x128_S400x128_1_0_0_1_n_n none a b (constant S400x128 .f32 0x00000000#32) (ix2 p j)
      = ∑ k : Fin 128, a (ix2 p k) * b (ix2 k j) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p j) ((contrEquiv1 dot_S400x128_S128x128_S400x128_1_0_0_1_n_n 128 rfl rfl).symm k) = ix2 p k := funext fun a => Fin.ext (by
    match a with
    | ⟨0, _⟩ => exact lhs_lin_0 _ _
    | ⟨1, _⟩ => exact (lhs_lin_1 _ _).trans hk)
  have er : dot_S400x128_S128x128_S400x128_1_0_0_1_n_n.rhsIdx (ix2 p j) ((contrEquiv1 dot_S400x128_S128x128_S400x128_1_0_0_1_n_n 128 rfl rfl).symm k) = ix2 k j := funext fun a => Fin.ext (by
    match a with
    | ⟨0, _⟩ => exact (rhs_lin_0 _ _).trans hk
    | ⟨1, _⟩ => exact rhs_lin_1 _ _)
  rw [el, er]

/-! ## The cuts and the spread -/

/-- The first 128 columns of the product. -/
theorem features_apply (z : FVec Ideal S400x256 .f32) (p : Fin 400) (j : Fin 128) :
    extractStridedSlice S400x128 ![0, 0] z slices_S400x256_o0_0_S400x128 (ix2 p j) = z (ix2 p (wide j)) :=
  extractStridedSlice_apply _ z _ _ _ (fun a => by
    match a with
    | ⟨0, _⟩ => exact (Nat.zero_add _).symm
    | ⟨1, _⟩ => exact (Nat.zero_add _).symm)

/-- Column 128 of the product. -/
theorem weight_apply (z : FVec Ideal S400x256 .f32) (p : Fin 400) (u : Fin 1) :
    extractStridedSlice S400x1 ![0, 128] z slices_S400x256_o0_128_S400x1 (ix2 p u) = z (ix2 p onesCol) :=
  extractStridedSlice_apply _ z _ _ _ (fun a => by
    match a with
    | ⟨0, _⟩ => exact (Nat.zero_add _).symm
    | ⟨1, _⟩ =>
      show (128 : Nat) = 128 + u.val
      have := u.isLt; omega)

/-- A column spread along 128 columns reads the column. -/
theorem spread_apply (w : FVec Ideal S400x1 .f32) (p : Fin 400) (q : Fin 128) :
    broadcastTo S400x128 w broadcasts_S400x1_S400x128 (ix2 p q) = w (ix2 p (0 : Fin 1)) :=
  broadcastTo_apply w _ _ (ix2 p (0 : Fin 1)) (fun a => by
    match a with
    | ⟨0, _⟩ => show p.val = if (400 : Nat) = 1 then 0 else p.val; rw [if_neg (by decide)]
    | ⟨1, _⟩ => show (0 : Nat) = if (1 : Nat) = 1 then 0 else q.val; rw [if_pos rfl])

/-! ## The payload -/

/-- The body's stored value is the block arrangement of its three loads. -/
theorem pay_eq (v0 : Vec Ideal S400x10000 .f32) (v1 : Vec Ideal S10000x256 .f32) (v6 : Vec Ideal S128x128 .f32) :
    k0_pay1 (F := Ideal) v0 v1 v6 = K v0 v1 v6 := by
  funext y
  obtain ⟨p, q, rfl⟩ : ∃ (p : Fin 400) (q : Fin 128), y = ix2 p q := ⟨y 0, y 1, eq_ix2 y⟩
  unfold k0_pay1
  rw [shapeCast_self, divf_apply, transform_apply, spread_apply, weight_apply, aggregate_apply]
  simp only [features_apply, aggregate_apply]
  rfl

end Cert.KernelIdeal.Payload

end
-- ==== Proof.Blocks.lean ====
import proofs.«163424_g21887153340602_cont_8to1_460_3_alg».proof.Proof.Gen.KernelIdeal.Value
import Idealize.ShloMosaic.Lib.Pipeline.Value
import Idealize.ShloMosaic.Lib.ValueIdx
import proofs.«163424_g21887153340602_cont_8to1_460_3_alg».proof.Proof.LibReal
import proofs.«163424_g21887153340602_cont_8to1_460_3_alg».proof.Proof.Spec
import proofs.«163424_g21887153340602_cont_8to1_460_3_alg».proof.Proof.Widened
import proofs.«163424_g21887153340602_cont_8to1_460_3_alg».proof.Proof.Payload

/-!
  From the 25 blocks to the whole output.

  Grid point `t` stages rows `400 t … 400 t + 399` of the edge weights, the whole of the widened features and the
  whole of `W`, and writes back rows `400 t … 400 t + 399` of the output.  What it writes back is the block
  arrangement of those three loads, which on real entries is the specification read at those rows.  The 25
  blocks of 400 rows fill the 10000 rows, so after the run the output array is the specification.
-/

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.LibReal Cert.Sage

variable (m : (ℓ : Loc nD τ sig) → Buf (Elt Ideal) ℓ) (ρ : Dev nD → PrngReg)

theorem origin : (![0, 0] : Fin 2 → Nat) = fun _ => 0 := funext fun a => by fin_cases a <;> rfl

/-- The three argument arrays on core `c`, at their literal types. -/
abbrev feat (c : Dev nD) : FVec Ideal S10000x128 .f32 := m ((c : Thread nD τ).loc main_arg0)
abbrev adj (c : Dev nD) : FVec Ideal S10000x10000 .f32 := m ((c : Thread nD τ).loc main_arg1)
abbrev lin (c : Dev nD) : FVec Ideal S128x128 .f32 := m ((c : Thread nD τ).loc main_arg2)

/-- The three staged blocks at point `t`, at their literal types. -/
abbrev adjBlk (c : Dev nD) (t : Fin cfg0.N) : Vec Ideal S400x10000 .f32 := iblk m c 0 t
abbrev wideBlk (c : Dev nD) (t : Fin cfg0.N) : Vec Ideal S10000x256 .f32 := iblk m c 1 t
abbrev linBlk (c : Dev nD) (t : Fin cfg0.N) : Vec Ideal S128x128 .f32 := iblk m c 2 t

/-- The printed index maps over the grid: the edge weights' block row is the output's, every other block
    index is zero, and the output's block row is below 25. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 24 :=
  (by decide +kernel : ∀ t : Fin grid0.N, _)

/-- Every block row of the output is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

/-- The staged widened features are the widened features of the first argument, at every point. -/
theorem wideBlk_eq (c : Dev nD) (t : Fin cfg0.N) : wideBlk m c t = Widened.widened (feat m c) := by
  obtain ⟨-, -, e2, e3, -, -, -, -⟩ := idx_facts t
  funext y
  show V m c (Pipeline.arrRef spec0 1) (((cfg0.win 1).blk t).view.emb y) = _
  have he : ((cfg0.win 1).blk t).view.emb y = y := funext fun a => Fin.ext (by
    match a with
    | ⟨0, _⟩ => show win0_1.index t (0 : Fin 2) * 10000 + 1 * (y 0).val = (y 0).val; omega
    | ⟨1, _⟩ => show win0_1.index t (1 : Fin 2) * 256 + 1 * (y 1).val = (y 1).val; omega)
  rw [he]
  exact congrFun (Widened.V_widened m c) y

/-- The staged linear map is the third argument, at every point. -/
theorem linBlk_eq (c : Dev nD) (t : Fin cfg0.N) : linBlk m c t = lin m c := by
  obtain ⟨-, -, -, -, e4, e5, -, -⟩ := idx_facts t
  funext y
  show V m c (Pipeline.arrRef spec0 2) (((cfg0.win 2).blk t).view.emb y) = _
  have he : ((cfg0.win 2).blk t).view.emb y = y := funext fun a => Fin.ext (by
    match a with
    | ⟨0, _⟩ => show win0_2.index t (0 : Fin 2) * 128 + 1 * (y 0).val = (y 0).val; omega
    | ⟨1, _⟩ => show win0_2.index t (1 : Fin 2) * 128 + 1 * (y 1).val = (y 1).val; omega)
  rw [he]
  exact congrFun (V_main_arg2 m c) y

/-- Row `p` of the staged edge weights at point `t` is row `400 t + p` of the second argument. -/
theorem adjBlk_apply (c : Dev nD) (t : Fin cfg0.N) (p : Fin 400) (k : Fin 10000) (r : Fin 10000)
    (hr : r.val = win0_3.index t (0 : Fin 2) * 400 + p.val) :
    adjBlk m c t (ix2 p k) = adj m c (ix2 r k) := by
  obtain ⟨e0, e1, -, -, -, -, -, -⟩ := idx_facts t
  show V m c (Pipeline.arrRef spec0 0) (((cfg0.win 0).blk t).view.emb (ix2 p k)) = _
  have he : ((cfg0.win 0).blk t).view.emb (ix2 p k) = ix2 r k := funext fun a => Fin.ext (by
    match a with
    | ⟨0, _⟩ => show win0_0.index t (0 : Fin 2) * 400 + 1 * p.val = r.val; omega
    | ⟨1, _⟩ => show win0_0.index t (1 : Fin 2) * 10000 + 1 * k.val = k.val; omega)
  rw [he]
  exact congrFun (V_main_arg1 m c) (ix2 r k)

/-- WHAT POINT `t` WRITES BACK is block `t` of the specification of the three arguments, when their entries
    are real. -/
theorem flushed_eq (c : Dev nD) (hx : ∀ i, IsReal (feat m c i)) (hA : ∀ i, IsReal (adj m c i))
    (hW : ∀ i, IsReal (lin m c i)) (t : Fin cfg0.N) :
    (dats m 0 c).flushed 3 t = ((cfg0.win 3).blk t).view.read (Elt Ideal) (G (feat m c) (adj m c) (lin m c)) := by
  rw [Value.flushed3]
  unfold out0_3
  rw [View.canon_unit_zero origin]
  simp only [View.ld_unit_zero (S := S400x10000) origin, View.ld_unit_zero (S := S10000x256) origin,
    View.ld_unit_zero (S := S128x128) origin]
  rw [Payload.pay_eq]
  obtain ⟨-, -, -, -, -, -, e6, -⟩ := idx_facts t
  funext j
  show K (adjBlk m c t) (wideBlk m c t) (linBlk m c t) j
    = G (feat m c) (adj m c) (lin m c) (((cfg0.win 3).blk t).view.emb j)
  rw [wideBlk_eq, linBlk_eq]
  refine K_eq_G (feat m c) (adj m c) (lin m c) hx hA hW (adjBlk m c t) (Widened.widened (feat m c)) (lin m c)
    (Widened.widened_wide (feat m c)) (Widened.widened_ones_ideal (feat m c)) j (((cfg0.win 3).blk t).view.emb j)
    (fun k => ?_) (fun o => ?_)
  · exact adjBlk_apply m c t (j 0) k ((((cfg0.win 3).blk t).view.emb j) 0) (by
      show win0_3.index t (0 : Fin 2) * 400 + 1 * (j 0).val = win0_3.index t (0 : Fin 2) * 400 + (j 0).val
      omega)
  · refine congrArg (lin m c) (congrArg (ix2 o) (Fin.ext ?_))
    show (j 1).val = win0_3.index t (1 : Fin 2) * 128 + 1 * (j 1).val
    omega

/-- An index of the output is in point `t`'s block iff each coordinate is in the block's range on its axis. -/
theorem mem_blk (t : Fin cfg0.N) (i : S10000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v0).slice (win0_3.rect t)).set ↔ _
  rw [View.set_slice_whole, Rect.mem_set_unit]
  exact Iff.rfl

/-- Every index of the output is in some point's block: row `r` in the block of point `r / 400`. -/
theorem cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ := idx_onto ⟨(i 0).val / 400, by omega⟩
  have q0 : win0_3.index t (0 : Fin 2) = (i 0).val / 400 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 400 ≤ (i 0).val ∧ (i 0).val < win0_3.index t (0 : Fin 2) * 400 + 400
    omega
  | ⟨1, _⟩ =>
    show win0_3.index t (1 : Fin 2) * 128 ≤ (i 1).val ∧ (i 1).val < win0_3.index t (1 : Fin 2) * 128 + 128
    omega

/-- THE OUTPUT after the run is the specification of the three arguments, when their entries are real. -/
theorem final (c : Dev nD) (hx : ∀ i, IsReal (feat m c i)) (hA : ∀ i, IsReal (adj m c i))
    (hW : ∀ i, IsReal (lin m c i)) :
    (dats m 0 c).arrAt 3 cfg0.N = G (feat m c) (adj m c) (lin m c) :=
  (dats m 0 c).arrAt_eq_of_cover 3 (G (feat m c) (adj m c) (lin m c))
    (fun t _ => flushed_eq m c hx hA hW t) cover

/-- The run: every weakly fair execution terminates with the output at the specification and the arguments
    unchanged, when the arguments' entries are real on every core. -/
theorem run (hreal : ∀ c : Dev nD, (∀ i, IsReal (feat m c i)) ∧ (∀ i, IsReal (adj m c i)) ∧ (∀ i, IsReal (lin m c i))) :
    θ_run defs (onTc (τ := τ) (main (F := Ideal))) ⟨m, fun _ => 0, ρ⟩ fun r => ∀ c : Dev nD,
      r.2.mem ((c : Thread nD τ).loc main_v0) = G (feat m c) (adj m c) (lin m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨(h c).1.trans (final m c (hreal c).1 (hreal c).2.1 (hreal c).2.2), (h c).2⟩)
    (Value.run_blocks m ρ)

end Cert.KernelIdeal.Blocks

end
-- ==== Proof.lean ====
/-
  Mean aggregation over a dense weighted graph: a fused kernel against the textbook formula.

  The reference transforms the node features (`x · W`), aggregates them with the edge weights (`A · (x · W)`)
  and divides each row by the row's total weight `Σ_k A[r,k]`.  The kernel reads `A` once, 400 rows at a time:
  it widens the features with a column of ones, so that one product `A · [x | 1 | 0]` yields both `A · x` and the
  row totals, multiplies the first by `W` and divides by the second.

  On the extended reals a product does not distribute over a sum in general, so `(A · x) · W = A · (x · W)` is not
  free; the precondition makes every entry of the three arguments a real number (Proof/Finite.lean), and on real
  entries the two bracketings agree (Proof/LibRealSum.lean, Proof/Spec.lean).  The row totals agree because
  a factor one and a summand zero change nothing.  Both sides divide by the same total division, so a zero row
  total needs no care.  The rest is reading: what the widened features hold (Proof/LibScatterSet.lean,
  Proof/Widened.lean), what the body stores (Proof/Payload.lean), that the blocks fill the output
  (Proof/Blocks.lean), and that the reference's operations are the formula (Proof/RefValue.lean).
  The idealization rewrote nothing, so its soundness claim is trivial.
-/
import proofs.«163424_g21887153340602_cont_8to1_460_3_alg».proof.Defs
import proofs.«163424_g21887153340602_cont_8to1_460_3_alg».proof.Proof.Gen.Kernel
import proofs.«163424_g21887153340602_cont_8to1_460_3_alg».proof.Proof.Gen.Kernel.Skeleton
import proofs.«163424_g21887153340602_cont_8to1_460_3_alg».proof.Proof.Gen.Kernel.Launch
import proofs.«163424_g21887153340602_cont_8to1_460_3_alg».proof.Proof.Gen.Kernel.Points
import proofs.«163424_g21887153340602_cont_8to1_460_3_alg».proof.Proof.Gen.Kernel.Frame
import proofs.«163424_g21887153340602_cont_8to1_460_3_alg».proof.Proof.Gen.KernelIdeal
import proofs.«163424_g21887153340602_cont_8to1_460_3_alg».proof.Proof.Gen.KernelIdeal.Skeleton
import proofs.«163424_g21887153340602_cont_8to1_460_3_alg».proof.Proof.Gen.KernelIdeal.Launch
import proofs.«163424_g21887153340602_cont_8to1_460_3_alg».proof.Proof.Gen.KernelIdeal.Points
import proofs.«163424_g21887153340602_cont_8to1_460_3_alg».proof.Proof.Gen.KernelIdeal.Frame
import proofs.«163424_g21887153340602_cont_8to1_460_3_alg».proof.Proof.Gen.ReferenceIdeal
import proofs.«163424_g21887153340602_cont_8to1_460_3_alg».proof.Proof.Gen.Pre_finite_inputs
import proofs.«163424_g21887153340602_cont_8to1_460_3_alg».proof.Proof.Gen.KernelIdeal.Value
import proofs.«163424_g21887153340602_cont_8to1_460_3_alg».proof.Proof.Gen.ReferenceIdeal.Run
import proofs.«163424_g21887153340602_cont_8to1_460_3_alg».proof.Proof.Gen.ReferenceIdeal.Read
import proofs.«163424_g21887153340602_cont_8to1_460_3_alg».proof.Proof.Finite
import proofs.«163424_g21887153340602_cont_8to1_460_3_alg».proof.Proof.RefValue
import proofs.«163424_g21887153340602_cont_8to1_460_3_alg».proof.Proof.Blocks
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel terminates without a fault and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, whose entries the precondition makes real, the kernel's output
    and the reference's are both the specification of the arguments. -/
theorem algebraic : Cert.algebraic_KernelIdeal_ReferenceIdeal := by
  intro m ρ m' ρ' hpre hagree
  have hreal : ∀ c : Dev Cert.KernelIdeal.nD,
      (∀ i, Cert.LibReal.IsReal (Cert.KernelIdeal.Blocks.feat m c i))
      ∧ (∀ i, Cert.LibReal.IsReal (Cert.KernelIdeal.Blocks.adj m c i))
      ∧ (∀ i, Cert.LibReal.IsReal (Cert.KernelIdeal.Blocks.lin m c i)) :=
    fun c => Cert.Finite.reals_of_pre _ _ _ (hpre c)
  refine ⟨fun c => Cert.Sage.G (Cert.KernelIdeal.Blocks.feat m c) (Cert.KernelIdeal.Blocks.adj m c)
    (Cert.KernelIdeal.Blocks.lin m c), Cert.KernelIdeal.Blocks.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq_G,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
